-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128x40 : Shape := ⟨2, ![128, 40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x40 : S_.BroadcastsInDim S128x40 (![] : Fin 0 → Fin S128x40.rank)
  reducesTo_S128x40_S_d0_1 : S128x40.ReducesTo [0, 1] S_

variable [Facts]

def fn {F : FTy → Type} [FloatOps F] (main_arg0 : FVec F S100000x256 .f32) (main_arg1 : IVec S2x1600000 32) (main_arg2 : FVec F S256x128 .f32) (main_arg3 : FVec F S128x40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x40 .f32 := Host.absf main_arg3
  let main_cst_2 : FVec F S_ .f32 := constant S_ .f32 0x7F800000#32
  let main_v10 : FVec F S128x40 .f32 := broadcastInDim S128x40 ![] bcast_S_S128x40 main_cst_2
  let main_v11 : IVec S128x40 1 := cmpf .olt main_v9 main_v10
  let main_c_3 : IVec S_ 1 := constantI S_ 1 1#1
  let main_v12 : IVec S_ 1 := (fun x v => Host.reduce IntOp.andi x v reducesTo_S128x40_S_d0_1 h_S_) main_v11 main_c_3
  let main_v13 : IVec S_ 1 := andi main_v8 main_v12
  main_v13
-- ==== Kernel.lean ====
abbrev S100000x256 : Shape := ⟨2, ![100000, 256]⟩
abbrev S2x1600000 : Shape := ⟨2, ![2, 1600000]⟩
abbrev S256x128 : Shape := ⟨2, ![256, 128]⟩
abbrev S128x40 : Shape := ⟨2, ![128, 40]⟩
abbrev S1x1600000 : Shape := ⟨2, ![1, 1600000]⟩
abbrev S1600000 : Shape := ⟨1, ![1600000]⟩
abbrev S100000x128 : Shape := ⟨2, ![100000, 128]⟩
abbrev S10000x256 : Shape := ⟨2, ![10000, 256]⟩
abbrev S10000x128 : Shape := ⟨2, ![10000, 128]⟩
abbrev S_ : Shape := ⟨0, ![]⟩
abbrev S1600000x1 : Shape := ⟨2, ![1600000, 1]⟩
abbrev S1600000x128 : Shape := ⟨2, ![1600000, 128]⟩
abbrev S100000x40 : Shape := ⟨2, ![100000, 40]⟩
abbrev S4000x128 : Shape := ⟨2, ![4000, 128]⟩
abbrev S4000x40 : Shape := ⟨2, ![4000, 40]⟩
abbrev S1600000x40 : Shape := ⟨2, ![1600000, 40]⟩

abbrev nBuf : Space → Nat
  | .hbm => 36
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128x40, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x40, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x40, .f32⟩
  | .hbm, ⟨32, _⟩ => ⟨S_, .f32⟩
  | .hbm, ⟨33, _⟩ => ⟨S100000x40, .f32⟩
  | .hbm, ⟨34, _⟩ => ⟨S1600000x1, .i32⟩
  | .hbm, ⟨35, _⟩ => ⟨S100000x40, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .f32⟩
  | .local _ .vmem, ⟨4, _⟩ => ⟨S10000x128, .f32⟩
  | .local _ .vmem, ⟨5, _⟩ => ⟨S4000x128, .f32⟩
  | .local _ .vmem, ⟨6, _⟩ => ⟨S4000x128, .f32⟩
  | .local _ .vmem, ⟨7, _⟩ => ⟨S128x40, .f32⟩
  | .local _ .vmem, ⟨8, _⟩ => ⟨S4000x40, .f32⟩
  | .local _ .vmem, ⟨9, _⟩ => ⟨S4000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x40_S128x40_0_0 : ∀ a, (![0, 0] : Fin 2 → Nat) a + S128x40.size a ≤ S128x40.size a
  h_S128x40 : 0 < S128x40.numel
  inb_S4000x40_S4000x40_0_0 : ∀ a, (![0, 0] : Fin 2 → Nat) a + S4000x40.size a ≤ S4000x40.size a
  h_S4000x40 : 0 < S4000x40.numel
  bcast_S_S100000x40 : S_.BroadcastsInDim S100000x40 (![] : Fin 0 → Fin S100000x40.rank)
  dot_S10000x256_S256x128_S10000x128_1_0_0_1_n_n_wf : DotDims.WF S10000x256 S256x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x40_S4000x40_1_0_0_1_n_n_wf : DotDims.WF S4000x128 S128x40 S4000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x40.size a ≤ S100000x40.size a
  hwx1_2 : ∀ i : grid1.Coords, EltTy.bits .f32 = 32 ∨ (Rect.block (s := S100000x40) S4000x40.size (cc1_transform_2 i) (hinb1_2 i)).WholeWords (EltTy.packing .f32)

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128x40 : Shape := ⟨2, ![128, 40]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S100000x40 : Shape := ⟨2, ![100000, 40]⟩
abbrev S1600000x40 : Shape := ⟨2, ![1600000, 40]⟩

abbrev nBuf : Space → Nat
  | .hbm => 39
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128x40, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S100000x40, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x40, .f32⟩
  | .hbm, ⟨35, _⟩ => ⟨S_, .f32⟩
  | .hbm, ⟨36, _⟩ => ⟨S100000x40, .f32⟩
  | .hbm, ⟨37, _⟩ => ⟨S1600000x1, .i32⟩
  | .hbm, ⟨38, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000x40 : S_.BroadcastsInDim S100000x40 (![] : Fin 0 → Fin S100000x40.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Dense.lean ====
/- The two dense layers of the graph network as functions of whole arrays, and the one re-indexing
   fact that identifies a single-axis contraction (a matrix unit's product into a zero accumulator, or the
   host's general product) with them.

   For an M×K array x and a K×N array w, `dense x w` has the entry  ∑ₖ x[r,k] · w[k,c]  at (r, c).
   `relu h` is the entrywise maximum of h with the value the zero word denotes.
   No law of the extended reals beyond re-indexing a finite sum is used: the contraction's own index set has one
   axis of extent K, and the sum over it is the sum over `Fin K`. -/
import Idealize.ShloMosaic.PureOps.Ideal.Laws
import Idealize.ShloMosaic.Lib.ValueIdx

noncomputable section

open scoped BigOperators

namespace Cert.Gcn

open Idealize.ShloMosaic Idealize.ShloMosaic.ValueIdx

/-- Entry (r, c) of the product of an M×K array by a K×N array: the sum over k of x[r,k] · w[k,c]. -/
def dense {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, (i 0).isLt⟩ : Fin M) k) * w (ix2 k (⟨(i 1).val, (i 1).isLt⟩ : Fin N))

/-- The entrywise maximum with zero (zero as the all-clear 32-bit word reads). -/
def relu {S : Shape} (h : S.Idx → EReal) : S.Idx → EReal :=
  fun i => max (h i) (Ideal.ofBits .f32 0x00000000#32)

/-- A contraction over one axis of extent K whose left index is (row of the output, k) and whose right index is
    (k, column of the output) sums exactly the terms of `dense`: the contraction's index set is `Fin K` through
    its one coordinate. -/
theorem contraction_eq_dense {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ q : D.contr.Idx, x (D.lhsIdx i q) * w (D.rhsIdx i q) = dense x w i := by
  unfold dense
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (⟨(i 0).val, (i 0).isLt⟩ : Fin M) k :=
    funext fun a => Fin.ext (by
      match a with
      | ⟨0, _⟩ => exact hl0 _ _
      | ⟨1, _⟩ => exact (hl1 _ _).trans hk)
  have er : D.rhsIdx i ((contrEquiv1 D K hr hs).symm k) = ix2 k (⟨(i 1).val, (i 1).isLt⟩ : Fin N) :=
    funext fun a => Fin.ext (by
      match a with
      | ⟨0, _⟩ => exact (hr0 _ _).trans hk
      | ⟨1, _⟩ => exact hr1 _ _)
  rw [el, er]

/-- The matrix unit's product into the zero accumulator, at an index, is `dense` of its operands (a change of
    float format being the identity on extended reals, the operands may be of any format). -/
theorem matmul_zero_eq_dense {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (x : FVec Ideal (⟨2, ![M, K]⟩ : Shape) φ₁) (w : FVec Ideal (⟨2, ![K, N]⟩ : Shape) φ₂) :
    FloatOps.matmul D prec x w (constant (⟨2, ![M, N]⟩ : Shape) .f32 0x00000000#32) = dense x w :=
  funext fun i => (Ideal.matmul_constant_zero_apply D prec x w i).trans
    (contraction_eq_dense D hr hs hl0 hl1 hr0 hr1 x w i)

/-- The host's general product, at the ideal values, is `dense` of its operands whatever its schedule. -/
theorem dotGeneral_eq_dense {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (sched : HostSchedule)
    (x : FVec Ideal (⟨2, ![M, K]⟩ : Shape) φ₁) (w : FVec Ideal (⟨2, ![K, N]⟩ : Shape) φ₂) :
    FloatOps.dotGeneral D prec sched x w = dense x w :=
  funext fun i => (Ideal.dotGeneral_apply D prec sched x w i).trans
    (contraction_eq_dense D hr hs hl0 hl1 hr0 hr1 x w i)

end Cert.Gcn

end
-- ==== Proof.Linear1.lean ====
/- Region 0 (the first layer's linear map), read: its output array after the run.

   The grid has ten points; point t multiplies rows 10000·t … 10000·t + 9999 of the node features by the whole
   weight array and writes those rows of the output.  A block of a product is the product of the row block by
   the weights, so what point t writes back is block t of `dense` of the two whole arrays, and the ten row
   blocks tile the output. -/
import proofs.«404097_j90993177133181_3_alg».proof.Proof.Gen.KernelIdeal.Frame
import proofs.«404097_j90993177133181_3_alg».proof.Proof.Dense
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Gcn

/-! ## The block product's index maps -/

theorem lhs_blockA_0 (i : S10000x128.Idx) (q : dot_S10000x256_S256x128_S10000x128_1_0_0_1_n_n.contr.Idx) :
    (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
theorem lhs_blockA_1 (i : S10000x128.Idx) (q : dot_S10000x256_S256x128_S10000x128_1_0_0_1_n_n.contr.Idx) :
    (dot_S10000x256_S256x128_S10000x128_1_0_0_1_n_n.lhsIdx i q 1).val = (q ⟨0, by decide⟩).val :=
  dot_S10000x256_S256x128_S10000x128_1_0_0_1_n_n.lhsIdx_val_of_single rfl i q
theorem rhs_blockA_0 (i : S10000x128.Idx) (q : dot_S10000x256_S256x128_S10000x128_1_0_0_1_n_n.contr.Idx) :
    (dot_S10000x256_S256x128_S10000x128_1_0_0_1_n_n.rhsIdx i q 0).val = (q ⟨0, by decide⟩).val :=
  dot_S10000x256_S256x128_S10000x128_1_0_0_1_n_n.rhsIdx_val_of_single rfl i q
theorem rhs_blockA_1 (i : S10000x128.Idx) (q : dot_S10000x256_S256x128_S10000x128_1_0_0_1_n_n.contr.Idx) :
    (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl

/-- The body's stored value is the product of the loaded row block by the loaded weights. -/
theorem payA_eq (x0 : Vec Ideal S10000x256 .f32) (x1 : Vec Ideal S256x128 .f32) :
    k0_pay1 (F := Ideal) x0 x1 = dense x0 x1 := by
  unfold k0_pay1
  exact matmul_zero_eq_dense dot_S10000x256_S256x128_S10000x128_1_0_0_1_n_n rfl rfl
    lhs_blockA_0 lhs_blockA_1 rhs_blockA_0 rhs_blockA_1 none _ _

/-! ## From blocks to the array -/

variable (V : (c : Dev nD) → (b : Ref sig .tc) → Buf (Elt Ideal) ((c : Thread nD τ).loc b))

theorem hzA : (![0, 0] : Fin 2 → Nat) = fun _ => 0 := funext fun a => by fin_cases a <;> rfl

/-- The printed index maps over the grid: the feature window and the output window sit at row block t, the
    weight window at the one block there is. -/
theorem idx_factsA : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushedA (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero hzA]
  simp only [View.ld_unit_zero (S := S10000x256) hzA, View.ld_unit_zero (S := S256x128) hzA]
  rw [payA_eq]
  obtain ⟨e0, e1, e2, e3, e4, e5⟩ := idx_factsA t
  funext j
  show dense (iblk0 V c 0 t) (iblk0 V c 1 t) j = dense (V c main_arg0) (V c main_arg2) (((cfg0.win 2).blk t).view.emb j)
  unfold dense
  refine Finset.sum_congr rfl fun k _ => ?_
  have h0 : ((cfg0.win 0).blk t).view.emb (ix2 (⟨(j 0).val, (j 0).isLt⟩ : Fin 10000) k)
      = ix2 (⟨((((cfg0.win 2).blk t).view.emb j) 0).val, ((((cfg0.win 2).blk t).view.emb j) 0).isLt⟩ : Fin 100000) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 256 + 1 * k.val = k.val; omega
  have h1 : ((cfg0.win 1).blk t).view.emb (ix2 k (⟨(j 1).val, (j 1).isLt⟩ : Fin 128))
      = ix2 k (⟨((((cfg0.win 2).blk t).view.emb j) 1).val, ((((cfg0.win 2).blk t).view.emb j) 1).isLt⟩ : Fin 128) := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) (congrArg (V c main_arg0) h0) (congrArg (V c main_arg2) h1)

/-- An index of the output is in point t's block iff each coordinate is in the block's range on its axis. -/
theorem mem_blkA (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v4).slice (win0_2.rect t)).set ↔ _
  rw [View.set_slice_whole, Rect.mem_set_unit]
  exact Iff.rfl

/-- Row r of the output lies in the block of point r / 10000. -/
theorem coverA (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := idx_factsA t
  refine ⟨t, flush0_2 t, ?_⟩
  rw [mem_blkA]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: the product of the two arrays the region was entered with. -/
theorem finalA (c : Dev nD) : (dat0 V c).arrAt 2 cfg0.N = dense (V c main_arg0) (V c main_arg2) :=
  (dat0 V c).arrAt_eq_of_cover 2 (dense (V c main_arg0) (V c main_arg2)) (fun t _ => flushedA V c t) coverA

end Cert.KernelIdeal.Hand

end
-- ==== Proof.Linear2.lean ====
/- Region 1 (the second layer's linear map with the relu fused in front), read: its output array after the run.

   The grid has twenty-five points; point t takes rows 4000·t … 4000·t + 3999 of the aggregated features, replaces
   each entry by its maximum with zero, multiplies by the whole weight array and writes those rows of the output.
   The relu is entrywise, so the relu of a row block is the row block of the relu; a block of a product is the
   product of the row block by the weights; and the twenty-five row blocks tile the output. -/
import proofs.«404097_j90993177133181_3_alg».proof.Proof.Gen.KernelIdeal.Frame
import proofs.«404097_j90993177133181_3_alg».proof.Proof.Dense
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Gcn

/-! ## The block product's index maps -/

theorem lhs_blockB_0 (i : S4000x40.Idx) (q : dot_S4000x128_S128x40_S4000x40_1_0_0_1_n_n.contr.Idx) :
    (dot_S4000x128_S128x40_S4000x40_1_0_0_1_n_n.lhsIdx i q 0).val = (i 0).val := by
  unfold DotDims.lhsIdx
  rw [dif_neg (show ¬(0 : Fin S4000x128.rank) ∈ dot_S4000x128_S128x40_S4000x40_1_0_0_1_n_n.lhsBatch by decide), dif_pos (show (0 : Fin S4000x128.rank) ∈ dot_S4000x128_S128x40_S4000x40_1_0_0_1_n_n.lhsNonContracting by decide)]
  rfl
theorem lhs_blockB_1 (i : S4000x40.Idx) (q : dot_S4000x128_S128x40_S4000x40_1_0_0_1_n_n.contr.Idx) :
    (dot_S4000x128_S128x40_S4000x40_1_0_0_1_n_n.lhsIdx i q 1).val = (q ⟨0, by decide⟩).val :=
  dot_S4000x128_S128x40_S4000x40_1_0_0_1_n_n.lhsIdx_val_of_single rfl i q
theorem rhs_blockB_0 (i : S4000x40.Idx) (q : dot_S4000x128_S128x40_S4000x40_1_0_0_1_n_n.contr.Idx) :
    (dot_S4000x128_S128x40_S4000x40_1_0_0_1_n_n.rhsIdx i q 0).val = (q ⟨0, by decide⟩).val :=
  dot_S4000x128_S128x40_S4000x40_1_0_0_1_n_n.rhsIdx_val_of_single rfl i q
theorem rhs_blockB_1 (i : S4000x40.Idx) (q : dot_S4000x128_S128x40_S4000x40_1_0_0_1_n_n.contr.Idx) :
    (dot_S4000x128_S128x40_S4000x40_1_0_0_1_n_n.rhsIdx i q 1).val = (i 1).val := by
  unfold DotDims.rhsIdx
  rw [dif_neg (show ¬(1 : Fin S128x40.rank) ∈ dot_S4000x128_S128x40_S4000x40_1_0_0_1_n_n.rhsBatch by decide), dif_pos (show (1 : Fin S128x40.rank) ∈ dot_S4000x128_S128x40_S4000x40_1_0_0_1_n_n.rhsNonContracting by decide)]
  rfl

/-- The body's stored value is the product of the relu of the loaded row block by the loaded weights (the
    same-shape cast in front of the maximum is the identity). -/
theorem payB_eq (x0 : Vec Ideal S4000x128 .f32) (x1 : Vec Ideal S128x40 .f32) :
    k1_pay1 (F := Ideal) x0 x1 = dense (relu x0) x1 := by
  unfold k1_pay1
  refine (matmul_zero_eq_dense dot_S4000x128_S128x40_S4000x40_1_0_0_1_n_n rfl rfl
    lhs_blockB_0 lhs_blockB_1 rhs_blockB_0 rhs_blockB_1 none _ _).trans ?_
  rw [shapeCast_self]
  rfl

/-! ## From blocks to the array -/

variable (V : (c : Dev nD) → (b : Ref sig .tc) → Buf (Elt Ideal) ((c : Thread nD τ).loc b))

theorem hzB : (![0, 0] : Fin 2 → Nat) = fun _ => 0 := funext fun a => by fin_cases a <;> rfl

/-- The printed index maps over the grid: the feature window and the output window sit at row block t, the
    weight window at the one block there is. -/
theorem idx_factsB : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the relu of the whole feature array by the weights. -/
theorem flushedB (c : Dev nD) (t : Fin cfg1.N) :
    (dat1 V c).flushed 2 t = ((cfg1.win 2).blk t).view.read (Elt Ideal) (dense (relu (V c main_v14)) (V c main_arg3)) := by
  show (cfg1.win 2).cut (grid1.coords t) ((dat1 V c).after 2 t) = _
  rw [after1_2]
  unfold out1_2
  rw [View.canon_unit_zero hzB]
  simp only [View.ld_unit_zero (S := S4000x128) hzB, View.ld_unit_zero (S := S128x40) hzB]
  rw [payB_eq]
  obtain ⟨e0, e1, e2, e3, e4, e5⟩ := idx_factsB t
  funext j
  show dense (relu (iblk1 V c 0 t)) (iblk1 V c 1 t) j = dense (relu (V c main_v14)) (V c main_arg3) (((cfg1.win 2).blk t).view.emb j)
  unfold dense
  refine Finset.sum_congr rfl fun k _ => ?_
  have h0 : ((cfg1.win 0).blk t).view.emb (ix2 (⟨(j 0).val, (j 0).isLt⟩ : Fin 4000) k)
      = ix2 (⟨((((cfg1.win 2).blk t).view.emb j) 0).val, ((((cfg1.win 2).blk t).view.emb j) 0).isLt⟩ : Fin 100000) k := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 128 + 1 * k.val = k.val; omega
  have h1 : ((cfg1.win 1).blk t).view.emb (ix2 k (⟨(j 1).val, (j 1).isLt⟩ : Fin 40))
      = ix2 k (⟨((((cfg1.win 2).blk t).view.emb j) 1).val, ((((cfg1.win 2).blk t).view.emb j) 1).isLt⟩ : Fin 40) := by
    funext a; apply Fin.ext
    match a with
    | ⟨0, _⟩ => show win1_1.index t (0 : Fin 2) * 128 + 1 * k.val = k.val; omega
    | ⟨1, _⟩ => show win1_1.index t (1 : Fin 2) * 40 + 1 * (j 1).val = win1_2.index t (1 : Fin 2) * 40 + 1 * (j 1).val; omega
  exact congrArg₂ (fun a b : EReal => a * b) (congrArg (relu (V c main_v14)) h0) (congrArg (V c main_arg3) h1)

/-- An index of the output is in point t's block iff each coordinate is in the block's range on its axis. -/
theorem mem_blkB (t : Fin cfg1.N) (i : S100000x40.Idx) :
    i ∈ ((cfg1.win 2).blk t).view.set ↔ ∀ a : Fin 2, win1_2.index t a * S4000x40.size a ≤ (i a).val ∧ (i a).val < win1_2.index t a * S4000x40.size a + S4000x40.size a := by
  show i ∈ ((View.whole main_v15).slice (win1_2.rect t)).set ↔ _
  rw [View.set_slice_whole, Rect.mem_set_unit]
  exact Iff.rfl

/-- Row r of the output lies in the block of point r / 4000. -/
theorem coverB (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, e4, e5⟩ := idx_factsB t
  refine ⟨t, flush1_2 t, ?_⟩
  rw [mem_blkB]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 40 ≤ (i 1).val ∧ (i 1).val < win1_2.index t (1 : Fin 2) * 40 + 40; omega

/-- The output array after the region: the relu of the feature array the region was entered with, times the weights. -/
theorem finalB (c : Dev nD) : (dat1 V c).arrAt 2 cfg1.N = dense (relu (V c main_v14)) (V c main_arg3) :=
  (dat1 V c).arrAt_eq_of_cover 2 (dense (relu (V c main_v14)) (V c main_arg3)) (fun t _ => flushedB V c t) coverB

end Cert.KernelIdeal.Hand

end
-- ==== Proof.Edges.lean ====
/- The message passing of one layer as ONE function of the edge list and the node features: every edge
   (s, d) adds row s of the features into row d of a zero array.  The host computes it with a gather of the
   source rows (a negative source index wrapped once by the node count) and a scatter-add at the destination
   rows.  It is kept as an opaque composite: both programs apply literally these operations, so only the
   features going in need comparing. -/
import proofs.«404097_j90993177133181_3_alg».proof.Proof.Gen.KernelIdeal

noncomputable section

namespace Cert.Gcn

open Cert.KernelIdeal Cert.KernelIdeal.Gen Idealize.ShloMosaic

variable {F : FTy → Type} [FloatOps F]

/-- Row 0 of the edge list: each edge's source node. -/
def srcRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: each edge's destination node. -/
def dstRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The gather's start indices: the sources, a negative one moved up by the node count, as a column. -/
def srcCol (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The scatter's indices: the destinations as a column. -/
def dstCol (d : (⟨S1600000, .i32⟩ : BufTy).Contents (Elt F)) : (⟨S1600000x1, .i32⟩ : BufTy).Contents (Elt F) :=
  broadcastInDim S1600000x1 ![0] bcast_S1600000_S1600000x1_0 d

/-- Layer 1's aggregation of 128-wide features along the edges. -/
def aggregate128 (s d : (⟨S1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (dstCol d)
    (Host.gather gather_S100000x128_S1600000x1_S1600000x128_1_0_n_n_0_1_1128 h (srcCol s))

/-- Layer 2's aggregation of 40-wide features along the edges. -/
def aggregate40 (s d : (⟨S1600000, .i32⟩ : BufTy).Contents (Elt F)) (h : (⟨S100000x40, .f32⟩ : BufTy).Contents (Elt F)) :
    (⟨S100000x40, .f32⟩ : BufTy).Contents (Elt F) :=
  Host.scatterAdd scatter_S100000x40_S1600000x1_S1600000x40_1_0_0_1
    (broadcastInDim S100000x40 ![] bcast_S_S100000x40 (constant S_ .f32 0x00000000#32)) (dstCol d)
    (Host.gather gather_S100000x40_S1600000x1_S1600000x40_1_0_n_n_0_1_140 h (srcCol s))

end Cert.Gcn

end
-- ==== Proof.KernelValue.lean ====
/- The idealized kernel's result as one term of its arguments.

   The run is: three host operations slice the edge list into its source and destination rows; region 0 writes the
   first dense layer; a host stretch aggregates it along the edges; region 1 writes the second dense layer of its
   relu; a last host stretch aggregates that.  The buffer contents at each boundary are followed from the launch
   memory: a buffer a stretch or region does not write keeps its contents, a region's output array ends holding the
   dense layer of the arrays the region was entered with, and a host stretch's result is its operations' composite. -/
import proofs.«404097_j90993177133181_3_alg».proof.Proof.KernelIdealRun
import proofs.«404097_j90993177133181_3_alg».proof.Proof.Linear1
import proofs.«404097_j90993177133181_3_alg».proof.Proof.Linear2
import proofs.«404097_j90993177133181_3_alg».proof.Proof.Edges
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.Gcn

variable (m : (ℓ : Loc nD τ sig) → Buf (Elt Ideal) ℓ) (ρ : Dev nD → PrngReg)

/-! ## After the first host stretch -/

theorem W1_src (c : Dev nD) : W1 m ρ c (Proc.devRef .tc main_v1) = srcRow (m ((c : Thread nD τ).loc main_arg1)) := by
  show StableHlo.after hostOps0 (W0 m ρ c) (Proc.devRef .tc main_v1) = _
  after_results
  rfl
theorem W1_dst (c : Dev nD) : W1 m ρ c (Proc.devRef .tc main_v3) = dstRow (m ((c : Thread nD τ).loc main_arg1)) := by
  show StableHlo.after hostOps0 (W0 m ρ c) (Proc.devRef .tc main_v3) = _
  after_results
  rfl
theorem W1_x (c : Dev nD) : W1 m ρ c (Proc.devRef .tc main_arg0) = m ((c : Thread nD τ).loc main_arg0) := by
  show StableHlo.after hostOps0 (W0 m ρ c) (Proc.devRef .tc main_arg0) = _
  after_results
theorem W1_w1 (c : Dev nD) : W1 m ρ c (Proc.devRef .tc main_arg2) = m ((c : Thread nD τ).loc main_arg2) := by
  show StableHlo.after hostOps0 (W0 m ρ c) (Proc.devRef .tc main_arg2) = _
  after_results
theorem W1_w2 (c : Dev nD) : W1 m ρ c (Proc.devRef .tc main_arg3) = m ((c : Thread nD τ).loc main_arg3) := by
  show StableHlo.after hostOps0 (W0 m ρ c) (Proc.devRef .tc main_arg3) = _
  after_results

/-! ## After region 0 -/

/-- The first layer's output: the dense layer of the node features and the first weights. -/
theorem W2_h (c : Dev nD) : W2 m ρ c (Proc.devRef .tc main_v4)
    = dense (m ((c : Thread nD τ).loc main_arg0)) (m ((c : Thread nD τ).loc main_arg2)) := by
  refine (W2_arr m ρ c 2).trans ((finalA (V1 m ρ) c).trans ?_)
  rw [show V1 m ρ c main_arg0 = m ((c : Thread nD τ).loc main_arg0) from W1_x m ρ c,
    show V1 m ρ c main_arg2 = m ((c : Thread nD τ).loc main_arg2) from W1_w1 m ρ c]
theorem W2_src (c : Dev nD) : W2 m ρ c (Proc.devRef .tc main_v1) = srcRow (m ((c : Thread nD τ).loc main_arg1)) :=
  (W2_of_ne m ρ c main_v1 (by decide)).trans (W1_src m ρ c)
theorem W2_dst (c : Dev nD) : W2 m ρ c (Proc.devRef .tc main_v3) = dstRow (m ((c : Thread nD τ).loc main_arg1)) :=
  (W2_of_ne m ρ c main_v3 (by decide)).trans (W1_dst m ρ c)
theorem W2_w2 (c : Dev nD) : W2 m ρ c (Proc.devRef .tc main_arg3) = m ((c : Thread nD τ).loc main_arg3) :=
  (W2_of_ne m ρ c main_arg3 (by decide)).trans (W1_w2 m ρ c)

/-! ## After the second host stretch -/

/-- The first aggregation. -/
theorem W3_agg (c : Dev nD) : W3 m ρ c (Proc.devRef .tc main_v14)
    = aggregate128 (srcRow (m ((c : Thread nD τ).loc main_arg1))) (dstRow (m ((c : Thread nD τ).loc main_arg1)))
        (dense (m ((c : Thread nD τ).loc main_arg0)) (m ((c : Thread nD τ).loc main_arg2))) := by
  show StableHlo.after hostOps1 (W2 m ρ c) (Proc.devRef .tc main_v14) = _
  after_results
  rw [W2_h, W2_src, W2_dst]
  rfl
theorem W3_src (c : Dev nD) : W3 m ρ c (Proc.devRef .tc main_v1) = srcRow (m ((c : Thread nD τ).loc main_arg1)) := by
  show StableHlo.after hostOps1 (W2 m ρ c) (Proc.devRef .tc main_v1) = _
  after_results
  exact W2_src m ρ c
theorem W3_dst (c : Dev nD) : W3 m ρ c (Proc.devRef .tc main_v3) = dstRow (m ((c : Thread nD τ).loc main_arg1)) := by
  show StableHlo.after hostOps1 (W2 m ρ c) (Proc.devRef .tc main_v3) = _
  after_results
  exact W2_dst m ρ c
theorem W3_w2 (c : Dev nD) : W3 m ρ c (Proc.devRef .tc main_arg3) = m ((c : Thread nD τ).loc main_arg3) := by
  show StableHlo.after hostOps1 (W2 m ρ c) (Proc.devRef .tc main_arg3) = _
  after_results
  exact W2_w2 m ρ c

/-! ## After region 1 -/

/-- The second layer's output: the dense layer of the relu of the aggregate and the second weights. -/
theorem W4_h (c : Dev nD) : W4 m ρ c (Proc.devRef .tc main_v15)
    = dense (relu (aggregate128 (srcRow (m ((c : Thread nD τ).loc main_arg1))) (dstRow (m ((c : Thread nD τ).loc main_arg1)))
        (dense (m ((c : Thread nD τ).loc main_arg0)) (m ((c : Thread nD τ).loc main_arg2))))) (m ((c : Thread nD τ).loc main_arg3)) := by
  refine (W4_arr m ρ c 2).trans ((finalB (V3 m ρ) c).trans ?_)
  rw [show V3 m ρ c main_v14 = _ from W3_agg m ρ c, show V3 m ρ c main_arg3 = m ((c : Thread nD τ).loc main_arg3) from W3_w2 m ρ c]
theorem W4_src (c : Dev nD) : W4 m ρ c (Proc.devRef .tc main_v1) = srcRow (m ((c : Thread nD τ).loc main_arg1)) :=
  (W4_of_ne m ρ c main_v1 (by decide)).trans (W3_src m ρ c)
theorem W4_dst (c : Dev nD) : W4 m ρ c (Proc.devRef .tc main_v3) = dstRow (m ((c : Thread nD τ).loc main_arg1)) :=
  (W4_of_ne m ρ c main_v3 (by decide)).trans (W3_dst m ρ c)

/-! ## The result -/

/-- What the kernel's program returns, of its four arguments. -/
def result (x : (⟨S100000x256, .f32⟩ : BufTy).Contents (Elt Ideal)) (e : (⟨S2x1600000, .i32⟩ : BufTy).Contents (Elt Ideal))
    (w1 : (⟨S256x128, .f32⟩ : BufTy).Contents (Elt Ideal)) (w2 : (⟨S128x40, .f32⟩ : BufTy).Contents (Elt Ideal)) :
    (⟨S100000x40, .f32⟩ : BufTy).Contents (Elt Ideal) :=
  aggregate40 (srcRow e) (dstRow e) (dense (relu (aggregate128 (srcRow e) (dstRow e) (dense x w1))) w2)

/-- The second aggregation: the result buffer after the last host stretch. -/
theorem W5_result (c : Dev nD) : W5 m ρ c (Proc.devRef .tc main_v25)
    = result (m ((c : Thread nD τ).loc main_arg0)) (m ((c : Thread nD τ).loc main_arg1))
        (m ((c : Thread nD τ).loc main_arg2)) (m ((c : Thread nD τ).loc main_arg3)) := by
  show StableHlo.after hostOps2 (W4 m ρ c) (Proc.devRef .tc main_v25) = _
  after_results
  rw [W4_h, W4_src, W4_dst]
  rfl

/-- The run, read: the result buffer at `result` of the arguments, the arguments unchanged. -/
theorem run : θ_run defs (onTc (τ := τ) (main (F := Ideal))) ⟨m, fun _ => 0, ρ⟩ (fun r => ∀ c : Dev nD,
      r.2.mem ((c.tc : Thread nD τ).loc main_v25) = result (m ((c : Thread nD τ).loc main_arg0)) (m ((c : Thread nD τ).loc main_arg1))
        (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (W5_result m ρ c), (h c).2⟩) (run_main m ρ)

end Cert.KernelIdeal.Hand

end
-- ==== Proof.RefValue.lean ====
/- The idealized reference's result as the same composite the kernel's is read to:
   aggregate along the edges the second dense layer of the relu of the first layer's aggregate.

   The reference's host products are `dense` by re-indexing their one contracted axis; its relu is a maximum
   with a broadcast zero; its gathers and scatter-adds are, operation for operation, the ones `aggregate128`
   and `aggregate40` name (the two programs print equal dimension records). -/
import proofs.«404097_j90993177133181_3_alg».proof.Proof.Gen.ReferenceIdeal.Read
import proofs.«404097_j90993177133181_3_alg».proof.Proof.Dense
import proofs.«404097_j90993177133181_3_alg».proof.Proof.Edges
import Idealize.ShloMosaic.Lib.ValueIdx
import Idealize.ShloMosaic.Lib.IdealHost
import Idealize.ShloMosaic.PureOps.Ideal.Laws

noncomputable section

namespace Cert.ReferenceIdeal.Hand

open Idealize.ShloMosaic Idealize.ShloMosaic.ValueIdx
open Cert.ReferenceIdeal Cert.ReferenceIdeal.Gen Cert.ReferenceIdeal.Read Cert.Gcn

/-- The first host product is the first dense layer. -/
theorem product1 (x : (⟨S100000x256, .f32⟩ : BufTy).Contents (Elt Ideal)) (w : (⟨S256x128, .f32⟩ : BufTy).Contents (Elt Ideal)) :
    val_main_v4 (F := Ideal) x w = dense x w := by
  unfold val_main_v4
  simp only [Host.dotGeneral]
  exact dotGeneral_eq_dense dot_S100000x256_S256x128_S100000x128_1_0_0_1_n_n rfl rfl
    lhs_main_v4_0 lhs_main_v4_1 rhs_main_v4_0 rhs_main_v4_1 none _ x w

/-- The second host product, of any left operand, is the second dense layer. -/
theorem product2 (h : FVec Ideal S100000x128 .f32) (w : FVec Ideal S128x40 .f32) :
    Host.dotGeneral (F := Ideal) dot_S100000x128_S128x40_S100000x40_1_0_0_1_n_n none h w = dense h w := by
  simp only [Host.dotGeneral]
  exact dotGeneral_eq_dense dot_S100000x128_S128x40_S100000x40_1_0_0_1_n_n rfl rfl
    lhs_main_v16_0 lhs_main_v16_1 rhs_main_v16_0 rhs_main_v16_1 none _ h w

/-- The outlined relu: the maximum with a broadcast zero. -/
theorem relu_eq (h : FVec Ideal S100000x128 .f32) :
    maximumf (F := Ideal) h (val_main_call0_v0 (F := Ideal)) = relu h := by
  funext i
  rw [maximumf_apply, val_main_call0_v0_apply]
  rfl

/-! The two programs print equal dimension records, index columns and zero arrays. -/

theorem scatter128_eq : scatter_S100000x128_S1600000x1_S1600000x128_1_0_0_1
    = Cert.KernelIdeal.scatter_S100000x128_S1600000x1_S1600000x128_1_0_0_1 := rfl
theorem gather128_eq : gather_S100000x128_S1600000x1_S1600000x128_1_0_n_n_0_1_1128
    = Cert.KernelIdeal.gather_S100000x128_S1600000x1_S1600000x128_1_0_n_n_0_1_1128 := rfl
theorem scatter40_eq : scatter_S100000x40_S1600000x1_S1600000x40_1_0_0_1
    = Cert.KernelIdeal.scatter_S100000x40_S1600000x1_S1600000x40_1_0_0_1 := rfl
theorem gather40_eq : gather_S100000x40_S1600000x1_S1600000x40_1_0_n_n_0_1_140
    = Cert.KernelIdeal.gather_S100000x40_S1600000x1_S1600000x40_1_0_n_n_0_1_140 := rfl
theorem src1_eq (e : (⟨S2x1600000, .i32⟩ : BufTy).Contents (Elt Ideal)) : val_main_v10 (F := Ideal) e = srcCol (srcRow e) := rfl
theorem src2_eq (e : (⟨S2x1600000, .i32⟩ : BufTy).Contents (Elt Ideal)) : val_main_v22 (F := Ideal) e = srcCol (srcRow e) := rfl
theorem dst1_eq (e : (⟨S2x1600000, .i32⟩ : BufTy).Contents (Elt Ideal)) : val_main_v13 (F := Ideal) e = dstCol (dstRow e) := rfl
theorem dst2_eq (e : (⟨S2x1600000, .i32⟩ : BufTy).Contents (Elt Ideal)) : val_main_v25 (F := Ideal) e = dstCol (dstRow e) := rfl
theorem zero128_eq : val_main_v12 (F := Ideal) = broadcastInDim Cert.KernelIdeal.S100000x128 ![] Cert.KernelIdeal.Gen.bcast_S_S100000x128
    (constant (F := Ideal) Cert.KernelIdeal.S_ .f32 0x00000000#32) := rfl
theorem zero40_eq : val_main_v24 (F := Ideal) = broadcastInDim Cert.KernelIdeal.S100000x40 ![] Cert.KernelIdeal.Gen.bcast_S_S100000x40
    (constant (F := Ideal) Cert.KernelIdeal.S_ .f32 0x00000000#32) := rfl

/-- The first aggregation, of any features, is `aggregate128` of the edge list's two rows. -/
theorem aggregate1 (e : (⟨S2x1600000, .i32⟩ : BufTy).Contents (Elt Ideal)) (h : FVec Ideal S100000x128 .f32) :
    Host.scatterAdd (F := Ideal) scatter_S100000x128_S1600000x1_S1600000x128_1_0_0_1 (val_main_v12 (F := Ideal)) (val_main_v13 (F := Ideal) e)
        (Host.gather gather_S100000x128_S1600000x1_S1600000x128_1_0_n_n_0_1_1128 h (val_main_v10 (F := Ideal) e))
      = aggregate128 (srcRow e) (dstRow e) h := by
  rw [scatter128_eq, gather128_eq, src1_eq, dst1_eq, zero128_eq]
  rfl

/-- The second aggregation, of any features, is `aggregate40` of the edge list's two rows. -/
theorem aggregate2 (e : (⟨S2x1600000, .i32⟩ : BufTy).Contents (Elt Ideal)) (h : FVec Ideal S100000x40 .f32) :
    Host.scatterAdd (F := Ideal) scatter_S100000x40_S1600000x1_S1600000x40_1_0_0_1 (val_main_v24 (F := Ideal)) (val_main_v25 (F := Ideal) e)
        (Host.gather gather_S100000x40_S1600000x1_S1600000x40_1_0_n_n_0_1_140 h (val_main_v22 (F := Ideal) e))
      = aggregate40 (srcRow e) (dstRow e) h := by
  rw [scatter40_eq, gather40_eq, src2_eq, dst2_eq, zero40_eq]
  rfl

/-- The reference's result, stage by stage. -/
theorem result_eq (x : (⟨S100000x256, .f32⟩ : BufTy).Contents (Elt Ideal)) (e : (⟨S2x1600000, .i32⟩ : BufTy).Contents (Elt Ideal))
    (w1 : (⟨S256x128, .f32⟩ : BufTy).Contents (Elt Ideal)) (w2 : (⟨S128x40, .f32⟩ : BufTy).Contents (Elt Ideal)) :
    val_main_v26 (F := Ideal) x e w1 w2
      = aggregate40 (srcRow e) (dstRow e) (dense (relu (aggregate128 (srcRow e) (dstRow e) (dense x w1))) w2) := by
  unfold val_main_v26 val_main_v23 val_main_v16 val_main_v15 val_main_v14 val_main_v11
  rw [product1, aggregate1, relu_eq, product2, aggregate2]

end Cert.ReferenceIdeal.Hand

end
-- ==== Proof.lean ====
/- Two-layer graph convolution: the kernel computes each layer's linear map in a tiled matrix-unit kernel (rows in
   blocks of 10000, then 4000, the second with the relu fused in front) and leaves the gather and scatter-add along the
   edges to the host; the reference computes the linear maps as host products.

   Over the extended reals both return, of the node features x, the edge list e and the weights w1, w2,

       aggregate e ( dense ( relu ( aggregate e ( dense x w1 ) ) ) w2 ),

   where `dense a b` has the entry ∑ₖ a[r,k] · b[k,c] and `aggregate` is the host's gather of source rows followed by its
   scatter-add at destination rows, the same operations in both programs and never opened here.  The kernel's side is
   read off its run: each region's output array is the dense layer of the arrays it was entered with, because a row
   block of a product is the product of the row block (and the relu is entrywise), and the row blocks tile the output.
   The reference's side is its generated run, its host products re-indexed to the same sums.  The only law used is
   re-indexing a finite sum; the precondition on the inputs is never opened.  The ideal pass rewrote nothing, so the
   idealization conjunct is trivial; the two kernel programs' frames are the generated ones and the reference's frame
   is its run with the result dropped. -/
import proofs.«404097_j90993177133181_3_alg».proof.Defs
import proofs.«404097_j90993177133181_3_alg».proof.Proof.Gen.Kernel
import proofs.«404097_j90993177133181_3_alg».proof.Proof.Gen.Kernel.Skeleton
import proofs.«404097_j90993177133181_3_alg».proof.Proof.Gen.Kernel.Launch
import proofs.«404097_j90993177133181_3_alg».proof.Proof.Gen.Kernel.Points
import proofs.«404097_j90993177133181_3_alg».proof.Proof.Gen.Kernel.Frame
import proofs.«404097_j90993177133181_3_alg».proof.Proof.Gen.KernelIdeal
import proofs.«404097_j90993177133181_3_alg».proof.Proof.Gen.KernelIdeal.Skeleton
import proofs.«404097_j90993177133181_3_alg».proof.Proof.Gen.KernelIdeal.Launch
import proofs.«404097_j90993177133181_3_alg».proof.Proof.Gen.KernelIdeal.Points
import proofs.«404097_j90993177133181_3_alg».proof.Proof.Gen.KernelIdeal.Frame
import proofs.«404097_j90993177133181_3_alg».proof.Proof.Gen.ReferenceIdeal
import proofs.«404097_j90993177133181_3_alg».proof.Proof.Gen.Pre_finite_inputs
import proofs.«404097_j90993177133181_3_alg».proof.Proof.Gen.ReferenceIdeal.Run
import proofs.«404097_j90993177133181_3_alg».proof.Proof.Gen.ReferenceIdeal.Read
import proofs.«404097_j90993177133181_3_alg».proof.Proof.KernelValue
import proofs.«404097_j90993177133181_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array at the same composite of arguments that agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v26_eq]
  exact Cert.ReferenceIdeal.Hand.result_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
